-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x128x128 : Shape := ⟨3, ![16, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) (main_arg1 : IVec S16x128x128 32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S16x128x128 : Shape := ⟨3, ![16, 128, 128]⟩
abbrev S16x256x16384 : Shape := ⟨3, ![16, 256, 16384]⟩
abbrev S16x1x16384 : Shape := ⟨3, ![16, 1, 16384]⟩
abbrev S16x256x19 : Shape := ⟨3, ![16, 256, 19]⟩
abbrev S1x256x4096 : Shape := ⟨3, ![1, 256, 4096]⟩
abbrev S1x1x4096 : Shape := ⟨3, ![1, 1, 4096]⟩
abbrev S1x256x19 : Shape := ⟨3, ![1, 256, 19]⟩
abbrev S256x4096 : Shape := ⟨2, ![256, 4096]⟩
abbrev S4096 : Shape := ⟨1, ![4096]⟩
abbrev S1x4096 : Shape := ⟨2, ![1, 4096]⟩
abbrev S19x4096 : Shape := ⟨2, ![19, 4096]⟩
abbrev S256x19 : Shape := ⟨2, ![256, 19]⟩
abbrev S_ : Shape := ⟨0, ![]⟩
abbrev S19 : Shape := ⟨1, ![19]⟩
abbrev S1x19 : Shape := ⟨2, ![1, 19]⟩

abbrev nBuf : Space → Nat
  | .hbm => 17
  | .vmem => 6
  | .smem => 0
  | _ => 0

abbrev bufTy : (tb : Table) → Fin (tcTables nBuf tb) → BufTy
  | .hbm, ⟨0, _⟩ => ⟨S16x256x128x128, .f32⟩
  | .hbm, ⟨1, _⟩ => ⟨S16x128x128, .i32⟩
  | .hbm, ⟨2, _⟩ => ⟨S16x256x16384, .f32⟩
  | .hbm, ⟨3, _⟩ => ⟨S16x1x16384, .i32⟩
  | .hbm, ⟨4, _⟩ => ⟨S16x256x19, .f32⟩
  | .hbm, ⟨5, _⟩ => ⟨S_, .f32⟩
  | .hbm, ⟨6, _⟩ => ⟨S256x19, .f32⟩
  | .hbm, ⟨7, _⟩ => ⟨S256x19, .f32⟩
  | .hbm, ⟨8, _⟩ => ⟨S_, .f32⟩
  | .hbm, ⟨9, _⟩ => ⟨S19, .f32⟩
  | .hbm, ⟨10, _⟩ => ⟨S1x19, .f32⟩
  | .hbm, ⟨11, _⟩ => ⟨S1x19, .f32⟩
  | .hbm, ⟨12, _⟩ => ⟨S_, .f32⟩
  | .hbm, ⟨13, _⟩ => ⟨S1x19, .f32⟩
  | .hbm, ⟨14, _⟩ => ⟨S1x19, .f32⟩
  | .hbm, ⟨15, _⟩ => ⟨S256x19, .f32⟩
  | .hbm, ⟨16, _⟩ => ⟨S256x19, .f32⟩
  | .local _ .vmem, ⟨0, _⟩ => ⟨S1x256x4096, .f32⟩
  | .local _ .vmem, ⟨1, _⟩ => ⟨S1x256x4096, .f32⟩
  | .local _ .vmem, ⟨2, _⟩ => ⟨S1x1x4096, .i32⟩
  | .local _ .vmem, ⟨3, _⟩ => ⟨S1x1x4096, .i32⟩
  | .local _ .vmem, ⟨4, _⟩ => ⟨S1x256x19, .f32⟩
  | .local _ .vmem, ⟨5, _⟩ => ⟨S1x256x19, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x256x128x128_S16x256x16384 : S16x256x128x128.ShapeCasts S16x256x16384
  shapeCasts_S16x128x128_S16x1x16384 : S16x128x128.ShapeCasts S16x1x16384
  inb_S1x256x19_S1x256x19_0_0_0 : ∀ a, (![0, 0, 0] : Fin 3 → Nat) a + S1x256x19.size a ≤ S1x256x19.size a
  h_S1x256x19 : 0 < S1x256x19.numel
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  reduces_S256x4096_S4096 : S256x4096.Reduces [0] S4096
  shapeCasts_S4096_S1x4096 : S4096.ShapeCasts S1x4096
  broadcasts_S1x4096_S256x4096 : S1x4096.Broadcasts S256x4096
  iota_S19x4096_d0_w32 : S19x4096.Iotas .tc 32 [0]
  broadcasts_S1x4096_S19x4096 : S1x4096.Broadcasts S19x4096
  natLt_1_32 : 1 < 32
  shapeCasts_S1x256x19_S1x256x19 : S1x256x19.ShapeCasts S1x256x19
  shapeCasts_S256x19_S1x256x19 : S256x19.ShapeCasts S1x256x19
  reducesTo_S16x256x19_S256x19_d0 : S16x256x19.ReducesTo [0] S256x19
  h_S_ : 0 < S_.numel
  reducesTo_S256x19_S19_d0 : S256x19.ReducesTo [0] S19
  bcast_S19_S1x19_1 : S19.BroadcastsInDim S1x19 (![1] : Fin 1 → Fin S1x19.rank)
  bcast_S_S1x19 : S_.BroadcastsInDim S1x19 (![] : Fin 0 → Fin S1x19.rank)
  bcast_S1x19_S256x19_0_1 : S1x19.BroadcastsInDim S256x19 (![0, 1] : Fin 2 → Fin S256x19.rank)
  dot_S256x4096_S19x4096_S256x19_1_1_0_0_n_n_wf : DotDims.WF S256x4096 S19x4096 S256x19 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x256x16384.size a
  hwx0_0 : ∀ i : grid0.Coords, EltTy.bits .f32 = 32 ∨ (Rect.block (s := S16x256x16384) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16x1x16384.size a
  hwx0_1 : ∀ i : grid0.Coords, EltTy.bits .i32 = 32 ∨ (Rect.block (s := S16x1x16384) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x19.size a ≤ S16x256x19.size a
  hwx0_2 : ∀ i : grid0.Coords, EltTy.bits .f32 = 32 ∨ (Rect.block (s := S16x256x19) S1x256x19.size (cc0_transform_2 i) (hinb0_2 i)).WholeWords (EltTy.packing .f32)

variable [Facts₀]

def dot_S256x4096_S19x4096_S256x19_1_1_0_0_n_n : DotDims S256x4096 S19x4096 S256x19 where
  lhsContracting := [1]
  rhsContracting := [1]
  lhsNonContracting := [0]
  rhsNonContracting := [0]
  lhsBatch := []
  rhsBatch := []
  wf := dot_S256x4096_S19x4096_S256x19_1_1_0_0_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x19.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S16x128x128 : Shape := ⟨3, ![16, 128, 128]⟩
abbrev S_ : Shape := ⟨0, ![]⟩
abbrev S16x1x128x128 : Shape := ⟨4, ![16, 1, 128, 128]⟩
abbrev S16x128x128x256 : Shape := ⟨4, ![16, 128, 128, 256]⟩
abbrev S262144x256 : Shape := ⟨2, ![262144, 256]⟩
abbrev S262144 : Shape := ⟨1, ![262144]⟩
abbrev S20x256 : Shape := ⟨2, ![20, 256]⟩
abbrev S262144x1 : Shape := ⟨2, ![262144, 1]⟩
abbrev S19x256 : Shape := ⟨2, ![19, 256]⟩
abbrev S256x19 : Shape := ⟨2, ![256, 19]⟩
abbrev S19 : Shape := ⟨1, ![19]⟩
abbrev S1x19 : Shape := ⟨2, ![1, 19]⟩

abbrev nBuf : Space → Nat
  | .hbm => 31
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x128x128, .i32⟩
  | .hbm, ⟨2, _⟩ => ⟨S16x256x128x128, .f32⟩
  | .hbm, ⟨3, _⟩ => ⟨S_, .f32⟩
  | .hbm, ⟨4, _⟩ => ⟨S16x128x128, .f32⟩
  | .hbm, ⟨5, _⟩ => ⟨S16x1x128x128, .f32⟩
  | .hbm, ⟨6, _⟩ => ⟨S16x1x128x128, .f32⟩
  | .hbm, ⟨7, _⟩ => ⟨S_, .f32⟩
  | .hbm, ⟨8, _⟩ => ⟨S16x1x128x128, .f32⟩
  | .hbm, ⟨9, _⟩ => ⟨S16x1x128x128, .f32⟩
  | .hbm, ⟨10, _⟩ => ⟨S16x256x128x128, .f32⟩
  | .hbm, ⟨11, _⟩ => ⟨S16x256x128x128, .f32⟩
  | .hbm, ⟨12, _⟩ => ⟨S16x128x128x256, .f32⟩
  | .hbm, ⟨13, _⟩ => ⟨S262144x256, .f32⟩
  | .hbm, ⟨14, _⟩ => ⟨S262144, .i32⟩
  | .hbm, ⟨15, _⟩ => ⟨S_, .f32⟩
  | .hbm, ⟨16, _⟩ => ⟨S20x256, .f32⟩
  | .hbm, ⟨17, _⟩ => ⟨S262144x1, .i32⟩
  | .hbm, ⟨18, _⟩ => ⟨S20x256, .f32⟩
  | .hbm, ⟨19, _⟩ => ⟨S19x256, .f32⟩
  | .hbm, ⟨20, _⟩ => ⟨S256x19, .f32⟩
  | .hbm, ⟨21, _⟩ => ⟨S256x19, .f32⟩
  | .hbm, ⟨22, _⟩ => ⟨S_, .f32⟩
  | .hbm, ⟨23, _⟩ => ⟨S19, .f32⟩
  | .hbm, ⟨24, _⟩ => ⟨S1x19, .f32⟩
  | .hbm, ⟨25, _⟩ => ⟨S1x19, .f32⟩
  | .hbm, ⟨26, _⟩ => ⟨S_, .f32⟩
  | .hbm, ⟨27, _⟩ => ⟨S1x19, .f32⟩
  | .hbm, ⟨28, _⟩ => ⟨S1x19, .f32⟩
  | .hbm, ⟨29, _⟩ => ⟨S256x19, .f32⟩
  | .hbm, ⟨30, _⟩ => ⟨S256x19, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  reducesTo_S16x256x128x128_S16x128x128_d1 : S16x256x128x128.ReducesTo [1] S16x128x128
  h_S_ : 0 < S_.numel
  bcast_S16x128x128_S16x1x128x128_0_2_3 : S16x128x128.BroadcastsInDim S16x1x128x128 (![0, 2, 3] : Fin 3 → Fin S16x1x128x128.rank)
  bcast_S_S16x1x128x128 : S_.BroadcastsInDim S16x1x128x128 (![] : Fin 0 → Fin S16x1x128x128.rank)
  bcast_S16x1x128x128_S16x256x128x128_0_1_2_3 : S16x1x128x128.BroadcastsInDim S16x256x128x128 (![0, 1, 2, 3] : Fin 4 → Fin S16x256x128x128.rank)
  transposes_S16x256x128x128_S16x128x128x256_0_2_3_1 : S16x256x128x128.Transposes [0, 2, 3, 1] S16x128x128x256
  shapeCasts_S16x128x128x256_S262144x256 : S16x128x128x256.ShapeCasts S262144x256
  shapeCasts_S16x128x128_S262144 : S16x128x128.ShapeCasts S262144
  bcast_S_S20x256 : S_.BroadcastsInDim S20x256 (![] : Fin 0 → Fin S20x256.rank)
  bcast_S262144_S262144x1_0 : S262144.BroadcastsInDim S262144x1 (![0] : Fin 1 → Fin S262144x1.rank)
  slices_S20x256_S19x256_0_0 : S20x256.Slices ![0, 0] S19x256
  transposes_S19x256_S256x19_1_0 : S19x256.Transposes [1, 0] S256x19
  reducesTo_S256x19_S19_d0 : S256x19.ReducesTo [0] S19
  bcast_S19_S1x19_1 : S19.BroadcastsInDim S1x19 (![1] : Fin 1 → Fin S1x19.rank)
  bcast_S_S1x19 : S_.BroadcastsInDim S1x19 (![] : Fin 0 → Fin S1x19.rank)
  bcast_S1x19_S256x19_0_1 : S1x19.BroadcastsInDim S256x19 (![0, 1] : Fin 2 → Fin S256x19.rank)
  scatter_S20x256_S262144x1_S262144x256_1_0_0_1_wf : ScatterDims.WF S20x256 S262144x1 S262144x256 [1] [0] [0] 1

variable [Facts₀]

def scatter_S20x256_S262144x1_S262144x256_1_0_0_1 : ScatterDims S20x256 S262144x1 S262144x256 where
  updateWindowDims := [1]
  insertedWindowDims := [0]
  scatterDimsToOperandDims := [0]
  indexVectorDim := 1
  wf := scatter_S20x256_S262144x1_S262144x256_1_0_0_1_wf

class Facts : Prop extends Facts₀ where

variable [Facts]
-- ==== Proof.LibNormClamp.lean ====
/-
  A clamped reciprocal norm, two ways, on the extended reals.

  For a positive real `d`, every extended real `s` and every extended real `x`:

      x · rsqrt (max s d²)  =  x / max (√s) d .

  On a real `s ≥ 0` both sides are `x` times the reciprocal of `max (√s) d`, because the square root is monotone and
  `√(d²) = d`. The corner cases agree too: at `s = +∞` both factors are `0`; at `s = -∞` and at a negative real
  `s` the square root is `-∞`, the clamp takes over on both sides, and both are `x · d⁻¹`.
-/
import Idealize.ShloMosaic.PureOps.Ideal

noncomputable section

namespace Idealize.ShloMosaic.NormClamp

open Idealize.ShloMosaic

/-- The reciprocal square root of the square of a positive real, as an extended real. -/
theorem rsqrt_sq_pos (d : ℝ) (hd : 0 < d) : Ideal.rsqrt ((d * d : ℝ) : EReal) = ((1 / d : ℝ) : EReal) := by
  have hdd : 0 < d * d := mul_pos hd hd
  show (if d * d < 0 then (⊥ : EReal) else if d * d = 0 then ⊤ else ((Real.sqrt (d * d))⁻¹ : ℝ)) = _
  rw [if_neg (not_lt.2 hdd.le), if_neg hdd.ne', Real.sqrt_mul_self hd.le, one_div]

/-- The reciprocal square root of a positive real. -/
theorem rsqrt_pos (r : ℝ) (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.2 hr.le), if_neg hr.ne']

/-- The square root of a real that is not negative. -/
theorem sqrt_nonneg (r : ℝ) (hr : 0 ≤ r) : Ideal.sqrt (r : EReal) = ((Real.sqrt r : ℝ) : EReal) := by
  show (if r < 0 then (⊥ : EReal) else (Real.sqrt r : EReal)) = _
  rw [if_neg (not_lt.2 hr)]

/-- The square root of a negative real is `-∞`. -/
theorem sqrt_neg (r : ℝ) (hr : r < 0) : Ideal.sqrt (r : EReal) = ⊥ := by
  show (if r < 0 then (⊥ : EReal) else (Real.sqrt r : EReal)) = _
  rw [if_pos hr]

/-- The larger of two reals, as an extended real, is the larger of the two extended reals. -/
theorem max_coe (a b : ℝ) : max (a : EReal) (b : EReal) = ((max a b : ℝ) : EReal) :=
  (EReal.coe_strictMono.monotone.map_max).symm

/-- `x · rsqrt (max s d²) = x / max (√s) d` for a positive real `d`, on all extended reals. -/
theorem mul_rsqrt_max_sq (x s : EReal) (d : ℝ) (hd : 0 < d) :
    x * Ideal.rsqrt (max s ((d * d : ℝ) : EReal)) = Ideal.div x (max (Ideal.sqrt s) (d : EReal)) := by
  have hdd : 0 < d * d := mul_pos hd hd
  induction s using EReal.rec with
  | bot =>
    rw [max_eq_right bot_le, rsqrt_sq_pos d hd]
    show _ = Ideal.div x (max (⊥ : EReal) (d : EReal))
    rw [max_eq_right bot_le, Ideal.div_coe hd.ne']
  | top =>
    rw [max_eq_left le_top]
    show x * (0 : EReal) = Ideal.div x (max (⊤ : EReal) (d : EReal))
    rw [max_eq_left le_top, mul_zero]
    show (0 : EReal) = if (⊤ : EReal) = 0 then (if 0 < x then ⊤ else ⊥) else x * (⊤ : EReal)⁻¹
    rw [if_neg EReal.top_ne_zero, EReal.inv_top, mul_zero]
  | coe r =>
    by_cases hr : r < 0
    · have h1 : max (r : EReal) ((d * d : ℝ) : EReal) = ((d * d : ℝ) : EReal) :=
        max_eq_right (EReal.coe_le_coe_iff.2 (hr.le.trans hdd.le))
      rw [h1, rsqrt_sq_pos d hd, sqrt_neg r hr, max_eq_right bot_le, Ideal.div_coe hd.ne']
    · have hr0 : 0 ≤ r := not_lt.1 hr
      rw [sqrt_nonneg r hr0, max_coe, max_coe]
      have hM : 0 < max r (d * d) := lt_max_of_lt_right hdd
      have hm : 0 < max (Real.sqrt r) d := lt_max_of_lt_right hd
      rw [rsqrt_pos _ hM, Ideal.div_coe hm.ne', one_div]
      have hs : Real.sqrt (max r (d * d)) = max (Real.sqrt r) d := by
        rcases le_total r (d * d) with h | h
        · rw [max_eq_right h, Real.sqrt_mul_self hd.le]
          have : Real.sqrt r ≤ d := by
            rw [← Real.sqrt_mul_self hd.le]; exact Real.sqrt_le_sqrt h
          rw [max_eq_right this]
        · rw [max_eq_left h]
          have : d ≤ Real.sqrt r := by
            rw [← Real.sqrt_mul_self hd.le]; exact Real.sqrt_le_sqrt h
          rw [max_eq_left this]
      rw [hs]

end Idealize.ShloMosaic.NormClamp

end
-- ==== Proof.Spec.lean ====
/-
  The mathematics both programs compute, stated once over the argument arrays.

  `X` is the feature array f32[16, 256, 128, 128] (batch, channel, row, column), `L` the label array i32[16, 128, 128].
  Every pixel `(b, h, w)` carries a 256-vector of channels; it is divided by its Euclidean norm clamped below at `ε`
  (`unit`), and the prototype entry `(f, c)` is the sum of channel `f` of those unit vectors over the pixels labelled
  `c` (`proto`); a label outside `0 … 18` contributes to no prototype. The 19 prototype columns are then divided by
  their own clamped norms (`renorm`).

  The kernel meets the same numbers in another arrangement: the pixels of one batch entry as one axis of 16384,
  cut into four chunks of 4096 (`chunk`, `partialK`), the clamp taken on the SQUARED norm at `ε²` and a reciprocal
  square root in place of the quotient (`unitK`), the selection by label a product with a 0/1 factor (`hot`).
-/
import Idealize.ShloMosaic.PureOps.Ideal
import Idealize.ShloMosaic.PureOps.Ideal.Laws
import Idealize.ShloMosaic.Lib.ValueIdx
import proofs.«420269_j31542239822124_3_alg».proof.Proof.LibNormClamp

noncomputable section

namespace Cert.Spec

open Idealize.ShloMosaic Idealize.ShloMosaic.ValueIdx

/-! ## Shapes -/

abbrev SX : Shape := ⟨4, ![16, 256, 128, 128]⟩
abbrev SL : Shape := ⟨3, ![16, 128, 128]⟩
abbrev SXR : Shape := ⟨3, ![16, 256, 16384]⟩
abbrev SLR : Shape := ⟨3, ![16, 1, 16384]⟩
abbrev SPart : Shape := ⟨3, ![16, 256, 19]⟩
abbrev SP : Shape := ⟨2, ![256, 19]⟩
abbrev S1x19 : Shape := ⟨2, ![1, 19]⟩
abbrev S19 : Shape := ⟨1, ![19]⟩
abbrev S_ : Shape := ⟨0, ![]⟩

/-! ## The two clamps -/

/-- The reference's clamp `ε`: the real number its float word denotes, `2305843 · 2⁻⁶¹`. -/
def eps : ℝ := 2305843 / 2305843009213693952

theorem eps_pos : 0 < eps := by unfold eps; norm_num

/-- The word `0x2B8CBCCC` denotes `ε`. -/
theorem ofBits_eps : Ideal.ofBits .f32 0x2B8CBCCC#32 = ((eps : ℝ) : EReal) := by
  unfold eps
  simp [Ideal.ofBits, Ideal.ieee, -EReal.coe_mul]; norm_num

/-- The kernel's clamp on the squared norm, as the certificate's table spells it, is `ε²`. -/
def epsSq : EReal := ((5316911940649 / 5316911983139663491615228241121378304 : ℝ) : EReal)

theorem epsSq_eq : epsSq = ((eps * eps : ℝ) : EReal) := by
  unfold epsSq eps
  congr 1
  norm_num

/-! ## Over the argument arrays -/

/-- The squared norm of pixel `(b, h, w)`'s channel vector. -/
def ssq (X : SX.Idx → EReal) (b : Fin 16) (h w : Fin 128) : EReal :=
  ∑ g : Fin 256, X (ix4 b g h w) * X (ix4 b g h w)

/-- Channel `f` of pixel `(b, h, w)`'s unit vector: the entry over the norm clamped below at `ε`. -/
def unit (X : SX.Idx → EReal) (b : Fin 16) (f : Fin 256) (h w : Fin 128) : EReal :=
  Ideal.div (X (ix4 b f h w)) (max (Ideal.sqrt (ssq X b h w)) ((eps : ℝ) : EReal))

/-- The same through a reciprocal square root of the squared norm clamped at `ε²`. -/
def unitK (X : SX.Idx → EReal) (b : Fin 16) (f : Fin 256) (h w : Fin 128) : EReal :=
  X (ix4 b f h w) * Ideal.rsqrt (max (ssq X b h w) epsSq)

/-- The two forms are one number, on all extended reals. -/
theorem unitK_eq (X : SX.Idx → EReal) (b : Fin 16) (f : Fin 256) (h w : Fin 128) : unitK X b f h w = unit X b f h w := by
  unfold unitK unit
  rw [epsSq_eq]
  exact NormClamp.mul_rsqrt_max_sq _ _ eps eps_pos

/-- What pixel `(b, h, w)` adds to prototype entry `(f, c)`: its unit vector's channel `f` when its label, read as a
    signed number, is `c`; nothing otherwise. -/
def contrib (X : SX.Idx → EReal) (L : SL.Idx → BitVec 32) (f : Fin 256) (c : Fin 19) (b : Fin 16) (h w : Fin 128) : EReal :=
  if (L (ix3 b h w)).toInt = (c.val : Int) then unit X b f h w else 0

/-- The prototypes: entry `(f, c)` sums the pixels' contributions over batch, row and column. -/
def proto (X : SX.Idx → EReal) (L : SL.Idx → BitVec 32) : SP.Idx → EReal :=
  fun i => ∑ b : Fin 16, ∑ h : Fin 128, ∑ w : Fin 128, contrib X L (i 0) (i 1) b h w

/-! ## The closing renormalization (the same operations in both programs) -/

/-- Each prototype column over its Euclidean norm clamped below at `ε`, as the host operations compute it. -/
def renorm (P : FVec Ideal SP .f32) : FVec Ideal SP .f32 :=
  Host.divf P
    (broadcastInDim SP (![0, 1] : Fin 2 → Fin SP.rank) (by decide)
      (maximumf
        (Host.sqrt (broadcastInDim S1x19 (![1] : Fin 1 → Fin S1x19.rank) (by decide)
          (Host.reduceAdd (mulf P P) (constant (F := Ideal) S_ .f32 0x00000000#32) (by decide : SP.ReducesTo [0] S19) (by decide))))
        (broadcastInDim S1x19 (![] : Fin 0 → Fin S1x19.rank) (by decide) (constant (F := Ideal) S_ .f32 0x2B8CBCCC#32))))

/-! ## The kernel's arrangement -/

/-- The 0/1 factor that selects label `c`: the label word equals the word of `c`. -/
def hot (l : BitVec 32) (c : Fin 19) : EReal := if l = BitVec.ofNat 32 c.val then 1 else 0

/-- Position `p` of chunk `n` on the pixel axis of 16384. -/
def pix (n : Fin 4) (p : Fin 4096) : Fin 16384 := ⟨n.val * 4096 + p.val, by have := n.isLt; have := p.isLt; omega⟩

/-- Chunk `n` of batch entry `b`, entry `(f, c)`: the sum over the chunk's 4096 pixels of channel `f` times the
    reciprocal square root of the clamped squared norm times the label factor — over the arrays with the two pixel
    axes merged (`XR` f32[16, 256, 16384], `LR` i32[16, 1, 16384]). -/
def chunk (XR : SXR.Idx → EReal) (LR : SLR.Idx → BitVec 32) (b : Fin 16) (n : Fin 4) (f : Fin 256) (c : Fin 19) : EReal :=
  ∑ p : Fin 4096,
    (XR (ix3 b f (pix n p)) * Ideal.rsqrt (max (∑ g : Fin 256, XR (ix3 b g (pix n p)) * XR (ix3 b g (pix n p))) epsSq))
      * hot (LR (ix3 b 0 (pix n p))) c

/-- The per-batch partial prototypes the kernel's region leaves: the four chunks of a batch entry, summed. -/
def partialK (XR : SXR.Idx → EReal) (LR : SLR.Idx → BitVec 32) : SPart.Idx → EReal :=
  fun i => ∑ n : Fin 4, chunk XR LR (i 0) n (i 1) (i 2)

end Cert.Spec

end
-- ==== Proof.RefProto.lean ====
/-
  The reference's prototypes, read at an index.

  Before its closing renormalization the reference holds, at `(f, c)`, the scatter-sum of the pixels' unit vectors: row
  `c` of a [20, 256] table into which every pixel's 256 channels were added at the row its label names (a label outside
  `0 … 19` adds nowhere; row 19 is cut off), transposed. That is `Cert.Spec.proto`.
-/
import proofs.«420269_j31542239822124_3_alg».proof.Proof.Gen.ReferenceIdeal.Read
import proofs.«420269_j31542239822124_3_alg».proof.Proof.Spec

noncomputable section

namespace Cert.ReferenceIdeal.RefValue

open Cert.ReferenceIdeal Cert.ReferenceIdeal.Gen Idealize.ShloMosaic Idealize.ShloMosaic.ValueIdx

namespace Proto

/-! ## A pixel of the merged axis, and the update and label the scatter reads for it -/

/-- The batch entry of pixel `q` on the merged axis of 262144 = 16 · 128 · 128. -/
def pb (q : Fin 262144) : Fin 16 := ⟨q.val / 16384, by have := q.isLt; omega⟩
/-- Its row. -/
def ph (q : Fin 262144) : Fin 128 := ⟨q.val / 128 % 128, by have := q.isLt; omega⟩
/-- Its column. -/
def pw (q : Fin 262144) : Fin 128 := ⟨q.val % 128, by have := q.isLt; omega⟩

/-- Entry `(q, f)` of the [262144, 256] array of updates is entry `(b, f, h, w)` of the quotient array, `(b, h, w)` the
    coordinates of pixel `q`: the reshape merges batch, row and column after the transpose has put the channel last. -/
theorem idx_upd (q : Fin 262144) (f : Fin 256) :
    Read.idx_main_v5 (Read.idx_main_v6 (ix2 q f)) = ix4 (pb q) f (ph q) (pw q) := by
  funext a
  refine Fin.ext ?_
  have hq := q.isLt
  have hf := f.isLt
  match a with
  | ⟨0, _⟩ => show (q.val * 256 + f.val) / 4194304 = q.val / 16384; omega
  | ⟨1, _⟩ => show (q.val * 256 + f.val) % 256 = f.val; omega
  | ⟨2, _⟩ => show (q.val * 256 + f.val) / 32768 % 128 = q.val / 128 % 128; omega
  | ⟨3, _⟩ => show (q.val * 256 + f.val) / 256 % 128 = q.val % 128; omega

/-- The norm that divides entry `(b, f, h, w)` sums the squares over the channels `g` of the same pixel. -/
theorem idx_norm (b : Fin 16) (f g : Fin 256) (h w : Fin 128) :
    Read.idx_main_call0_v1 (Read.idx_main_call0_v2 (Read.idx_main_v3 (ix4 b f h w))) g = ix4 b g h w := by
  funext a
  refine Fin.ext ?_
  match a with
  | ⟨0, _⟩ => rfl
  | ⟨1, _⟩ => rfl
  | ⟨2, _⟩ => rfl
  | ⟨3, _⟩ => rfl

/-- The update the scatter adds for pixel `q`, channel `f`: the pixel's unit vector's channel `f`. -/
theorem upd_eq (X : (⟨S16x256x128x128, .f32⟩ : BufTy).Contents (Elt Ideal)) (q : Fin 262144) (f : Fin 256) :
    Read.val_main_v6 (F := Ideal) X (ix2 q f) = Cert.Spec.unit X (pb q) f (ph q) (pw q) := by
  rw [Read.val_main_v6_apply, Read.val_main_v5_apply, idx_upd, Read.val_main_v4_apply, Read.val_main_v3_apply,
    Read.val_main_v2_apply, Read.val_main_v0_apply, Read.val_main_call0_v2_apply, Read.val_main_call0_v1_apply,
    Read.val_main_v1_apply, Read.val_main_cst_apply, Read.val_main_call0_cst_apply]
  simp only [Read.val_main_call0_v0_apply, idx_norm, Ideal.hostDivf_def, Ideal.hostUnary_sqrt_def, Ideal.maximumf_def,
    Ideal.mulf_def, Ideal.ofBits_def, Ideal.ofBits_zero_f32, zero_add, Cert.Spec.ofBits_eps]
  rfl

/-! ## Where an update lands

The table has rows 0 … 19 and 256 columns; the indices are one label per pixel, the updates one row of 256 channels per
pixel. The one window axis of an update is its channel axis and goes to the table's column axis; the table's row axis is
the inserted one, and the label is the start on it. -/

/-- The scatter's dimension numbers, named. -/
abbrev sd : ScatterDims S20x256 S262144x1 S262144x256 := scatter_S20x256_S262144x1_S262144x256_1_0_0_1

/-- The start index of update `j` is read at its pixel `j 0` (the index vector has one component). -/
theorem sd_siIdx (j : S262144x256.Idx) (c : Fin sd.scatterDimsToOperandDims.length) :
    sd.siIdx j c = ix2 (j 0) (0 : Fin 1) := by
  funext b
  refine Fin.ext ?_
  match b with
  | ⟨0, _⟩ => rfl
  | ⟨1, _⟩ =>
    have h : c.val < 1 := c.isLt
    show c.val = 0
    omega

/-- On the row axis the window starts at the pixel's label, read signed. -/
theorem sd_start0 (j : S262144x256.Idx) (idx : IVec S262144x1 32) :
    sd.start j idx 0 = (idx (ix2 (j 0) (0 : Fin 1))).toInt := by
  unfold ScatterDims.start
  rw [dif_pos (show (0 : Fin S20x256.rank) ∈ sd.scatterDimsToOperandDims by decide), sd_siIdx]
  rfl

/-- On the column axis it starts at 0. -/
theorem sd_start1 (j : S262144x256.Idx) (idx : IVec S262144x1 32) :
    sd.start j idx 1 = 0 := by
  unfold ScatterDims.start
  rw [dif_neg (show ¬ (1 : Fin S20x256.rank) ∈ sd.scatterDimsToOperandDims by decide)]

/-- The row axis is inserted: no window coordinate on it. -/
theorem sd_window0 (j : S262144x256.Idx) : sd.window j 0 = 0 := by
  unfold ScatterDims.window
  rw [dif_neg (show ¬ (0 : Fin S20x256.rank) ∈ sd.sKept by decide)]

/-- On the column axis the window coordinate is the update's channel. -/
theorem sd_window1 (j : S262144x256.Idx) : sd.window j 1 = (j 1).val := by
  unfold ScatterDims.window
  rw [dif_pos (show (1 : Fin S20x256.rank) ∈ sd.sKept by decide)]
  rfl

/-- Where update `j` lands: at row "label of pixel `j 0`, read signed", column `j 1`; nowhere when that row is outside the
    table. -/
theorem sd_resultIdx (j : S262144x256.Idx) (idx : IVec S262144x1 32) (i : S20x256.Idx) :
    sd.resultIdx? j idx = some i ↔ (idx (ix2 (j 0) (0 : Fin 1))).toInt = ((i 0).val : Int) ∧ j 1 = i 1 := by
  have hi0 : (i 0).val < 20 := (i 0).isLt
  have hj1 : (j 1).val < 256 := (j 1).isLt
  unfold ScatterDims.resultIdx?
  by_cases hall : ∀ a, 0 ≤ sd.start j idx a + sd.window j a ∧ sd.start j idx a + sd.window j a < S20x256.size a
  · rw [dif_pos hall]
    have h0 : 0 ≤ sd.start j idx 0 + (sd.window j 0 : Int) := (hall 0).1
    rw [sd_start0, sd_window0] at h0
    constructor
    · intro h
      have h := Option.some.inj h
      have e0 : (sd.start j idx 0 + (sd.window j 0 : Int)).toNat = (i 0).val := congrArg Fin.val (congrFun h 0)
      have e1 : (sd.start j idx 1 + (sd.window j 1 : Int)).toNat = (i 1).val := congrArg Fin.val (congrFun h 1)
      rw [sd_start0, sd_window0] at e0
      rw [sd_start1, sd_window1] at e1
      refine ⟨by omega, Fin.ext (by omega)⟩
    · rintro ⟨e0, e1⟩
      refine congrArg some (funext fun a => Fin.ext ?_)
      match a with
      | ⟨0, _⟩ =>
        show (sd.start j idx 0 + (sd.window j 0 : Int)).toNat = (i 0).val
        rw [sd_start0, sd_window0, e0]; omega
      | ⟨1, _⟩ =>
        show (sd.start j idx 1 + (sd.window j 1 : Int)).toNat = (i 1).val
        rw [sd_start1, sd_window1, e1]; omega
  · rw [dif_neg hall]
    constructor
    · intro h; exact absurd h (by simp)
    · rintro ⟨e0, e1⟩
      refine absurd (fun a => ?_) hall
      match a with
      | ⟨0, _⟩ =>
        show 0 ≤ sd.start j idx 0 + (sd.window j 0 : Int) ∧ sd.start j idx 0 + (sd.window j 0 : Int) < ((20 : Nat) : Int)
        rw [sd_start0, sd_window0, e0]; omega
      | ⟨1, _⟩ =>
        show 0 ≤ sd.start j idx 1 + (sd.window j 1 : Int) ∧ sd.start j idx 1 + (sd.window j 1 : Int) < ((256 : Nat) : Int)
        rw [sd_start1, sd_window1]; omega

/-- The same at coordinates: update `(q, g)` lands at `(c, f)` exactly when pixel `q`'s label, read signed, is `c` and `g = f`. -/
theorem sd_resultIdx_ix (q : Fin 262144) (g : Fin 256) (idx : IVec S262144x1 32) (c : Fin 20) (f : Fin 256) :
    sd.resultIdx? (ix2 q g) idx = some (ix2 c f) ↔ (idx (ix2 q (0 : Fin 1))).toInt = (c.val : Int) ∧ g = f :=
  sd_resultIdx (ix2 q g) idx (ix2 c f)

/-! ## The scatter at an index -/

/-- The scatter read at `(c, f)`: the operand's entry plus, over the pixels whose label read signed is `c`, the update's
    channel `f`. -/
theorem scatter_apply (x : FVec Ideal S20x256 .f32) (idx : IVec S262144x1 32) (upd : FVec Ideal S262144x256 .f32)
    (c : Fin 20) (f : Fin 256) :
    Host.scatterAdd (F := Ideal) sd x idx upd (ix2 c f) =
      x (ix2 c f) + ∑ q : Fin 262144, if (idx (ix2 q (0 : Fin 1))).toInt = (c.val : Int) then upd (ix2 q f) else 0 := by
  show Ideal.hostScatterAdd sd x idx upd (ix2 c f) = _
  unfold Ideal.hostScatterAdd
  refine congrArg (x (ix2 c f) + ·) ?_
  rw [Finset.sum_filter, sum_idx2]
  refine Finset.sum_congr rfl fun q _ => ?_
  simp only [sd_resultIdx_ix]
  by_cases h : (idx (ix2 q (0 : Fin 1))).toInt = (c.val : Int)
  · simp only [h, true_and, if_true, Finset.sum_ite_eq', Finset.mem_univ]
  · simp only [h, false_and, if_false, Finset.sum_const_zero]

/-- The label the scatter reads for pixel `q`. -/
theorem label_eq (L : (⟨S16x128x128, .i32⟩ : BufTy).Contents (Elt Ideal)) (q : Fin 262144) :
    Read.val_main_v9 (F := Ideal) L (ix2 q (0 : Fin 1)) = L (ix3 (pb q) (ph q) (pw q)) := by
  rw [Read.val_main_v9_apply, Read.val_main_v7_apply]
  exact congrArg L (funext fun a => Fin.ext (by match a with | ⟨0, _⟩ => rfl | ⟨1, _⟩ => rfl | ⟨2, _⟩ => rfl))

/-- The scattered table at `(c, f)`: over the pixels labelled `c`, the sum of their unit vectors' channel `f`. -/
theorem v10_apply (X : (⟨S16x256x128x128, .f32⟩ : BufTy).Contents (Elt Ideal)) (L : (⟨S16x128x128, .i32⟩ : BufTy).Contents (Elt Ideal))
    (c : Fin 20) (f : Fin 256) :
    Read.val_main_v10 (F := Ideal) X L (ix2 c f) =
      ∑ q : Fin 262144, if (L (ix3 (pb q) (ph q) (pw q))).toInt = (c.val : Int) then Cert.Spec.unit X (pb q) f (ph q) (pw q) else 0 := by
  unfold Read.val_main_v10
  rw [scatter_apply, Read.val_main_v8_apply, Read.val_main_cst_0_apply, Ideal.ofBits_def, Ideal.ofBits_zero_f32, zero_add]
  refine Finset.sum_congr rfl fun q _ => ?_
  rw [upd_eq, label_eq]

/-! ## The merged pixel axis as batch × row × column -/

/-- The merged pixel axis is batch × row × column. -/
def pixEquiv : Fin 262144 ≃ Fin 16 × Fin 128 × Fin 128 where
  toFun q := (pb q, ph q, pw q)
  invFun p := ⟨p.1.val * 16384 + p.2.1.val * 128 + p.2.2.val, by
    have := p.1.isLt; have := p.2.1.isLt; have := p.2.2.isLt; omega⟩
  left_inv q := by
    refine Fin.ext ?_
    show q.val / 16384 * 16384 + q.val / 128 % 128 * 128 + q.val % 128 = q.val
    omega
  right_inv p := by
    obtain ⟨b, h, w⟩ := p
    have := b.isLt; have := h.isLt; have := w.isLt
    refine Prod.ext (Fin.ext ?_) (Prod.ext (Fin.ext ?_) (Fin.ext ?_))
    · show (b.val * 16384 + h.val * 128 + w.val) / 16384 = b.val; omega
    · show (b.val * 16384 + h.val * 128 + w.val) / 128 % 128 = h.val; omega
    · show (b.val * 16384 + h.val * 128 + w.val) % 128 = w.val; omega

/-- A sum over the merged pixel axis is the triple sum over batch, row and column. -/
theorem sum_pix {M : Type*} [AddCommMonoid M] (G : Fin 16 → Fin 128 → Fin 128 → M) :
    ∑ q : Fin 262144, G (pb q) (ph q) (pw q) = ∑ b : Fin 16, ∑ h : Fin 128, ∑ w : Fin 128, G b h w := by
  refine (Equiv.sum_comp pixEquiv (fun p : Fin 16 × Fin 128 × Fin 128 => G p.1 p.2.1 p.2.2)).trans ?_
  simp only [Fintype.sum_prod_type]

end Proto

open Proto

/-- The reference's prototype array (its value before the closing renormalization) is the specification's. -/
theorem protos_eq (X : (⟨S16x256x128x128, .f32⟩ : BufTy).Contents (Elt Ideal)) (L : (⟨S16x128x128, .i32⟩ : BufTy).Contents (Elt Ideal)) :
    Read.val_main_v12 (F := Ideal) X L = Cert.Spec.proto X L := by
  funext i
  obtain ⟨f, c, rfl⟩ : ∃ (f : Fin 256) (c : Fin 19), i = ix2 f c := ⟨i 0, i 1, eq_ix2 i⟩
  have hidx : Read.idx_main_v11 (Read.idx_main_v12 (ix2 f c)) = ix2 (⟨c.val, by have := c.isLt; omega⟩ : Fin 20) f := by
    funext a
    refine Fin.ext ?_
    match a with
    | ⟨0, _⟩ => rfl
    | ⟨1, _⟩ => rfl
  rw [Read.val_main_v12_apply, Read.val_main_v11_apply, hidx, v10_apply]
  unfold Cert.Spec.proto Cert.Spec.contrib
  exact sum_pix (fun b h w => if (L (ix3 b h w)).toInt = (c.val : Int) then Cert.Spec.unit X b f h w else 0)

end Cert.ReferenceIdeal.RefValue

end
-- ==== Proof.Payload.lean ====
/-
  The kernel body's two stored values, read at an index of the [1, 256, 19] output block.

  The reset stores zeros. The update stores, at `(0, f, c)`, what the block held there plus the chunk's sum over its
  4096 pixels `p` of channel `f` times the reciprocal square root of the pixel's clamped squared norm times the 0/1 factor
  "the pixel's label is `c`": a matrix product of the scaled block with the one-hot rows, contracted over the pixels.
-/
import proofs.«420269_j31542239822124_3_alg».proof.Proof.Gen.KernelIdeal.Skeleton
import proofs.«420269_j31542239822124_3_alg».proof.Proof.Spec
import Idealize.ShloMosaic.Lib.ValueLayout
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx

/-- The reset's value: zero everywhere. -/
theorem pay1_apply (i : S1x256x19.Idx) : (k0_pay1 (F := Ideal)) i = 0 := by
  unfold k0_pay1
  exact Ideal.ofBits_zero_f32

/-! ## The squared norm: the sum over the 256 channels -/

/-- The sum over axis 0 of a [256, 4096] array, read at pixel `p`, is the sum over the channels `g` of the entries `(g, p)`. -/
theorem sum_channels (v : FVec Ideal S256x4096 .f32) (h : S256x4096.Reduces [0] S4096) (hφ : FKind.Formats .f32)
    (hacc : (0x00000000#32 : BitVec 32) = 0x00000000#32) (p : Fin 4096) :
    multiReduction (F := Ideal) .add [0] S4096 v 0x00000000#32 h hφ hacc (ix1 p) = ∑ g : Fin 256, v (ix2 g p) := by
  refine (Ideal.multiReduction_add_single v 0x00000000#32 h hφ hacc (ix1 p)).trans ?_
  refine Finset.sum_congr rfl fun g _ => congrArg v ?_
  funext a
  match a with
  | ⟨0, _⟩ => rfl
  | ⟨1, _⟩ => rfl

/-! ## The labels' layout -/

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-! ## The one-hot factor -/

/-- The word comparison, widened to 32 bits and read as a signed number, is the 0/1 factor "the label is `c`". -/
theorem hot_eq (l : BitVec 32) (c : Fin 19) :
    FloatOps.sitofp (F := Ideal) .f32 ((IntOp.cmpi .eq l (BitVec.ofNat 32 c.val)).setWidth 32) = Cert.Spec.hot l c := by
  unfold Cert.Spec.hot IntOp.cmpi
  show (((BitVec.setWidth 32 (BitVec.ofBool (l == BitVec.ofNat 32 c.val))).toInt : ℝ) : EReal) = _
  by_cases h : l = BitVec.ofNat 32 c.val
  · rw [if_pos h, beq_iff_eq.mpr h]
    have e : (BitVec.setWidth 32 (BitVec.ofBool true)).toInt = 1 := by decide
    rw [e, Int.cast_one, EReal.coe_one]
  · rw [if_neg h, beq_eq_false_iff_ne.mpr h]
    have e : (BitVec.setWidth 32 (BitVec.ofBool false)).toInt = 0 := by decide
    rw [e, Int.cast_zero, EReal.coe_zero]

/-- The same over any two words known to be the label and the word of `c`. -/
theorem hot_of_eq (a b l : BitVec 32) (c : Fin 19) (ha : a = l) (hb : b = BitVec.ofNat 32 c.val) :
    FloatOps.sitofp (F := Ideal) .f32 ((IntOp.cmpi .eq a b).setWidth 32) = Cert.Spec.hot l c := by
  subst ha hb
  exact hot_eq _ _

/-! ## The matrix product, contracted over the pixels

The product's dimension numbers contract axis 1 of both operands (the 4096 pixels); the left operand's axis 0 (the 256
channels) and the right operand's axis 0 (the 19 labels) are the result's two axes. -/

/-- The left operand's row is the result's row. -/
theorem lhs_axis0 (j : S256x19.Idx) (k : dot_S256x4096_S19x4096_S256x19_1_1_0_0_n_n.contr.Idx) :
    (dot_S256x4096_S19x4096_S256x19_1_1_0_0_n_n.lhsIdx j k 0).val = (j 0).val := by
  simp [DotDims.lhsIdx, dot_S256x4096_S19x4096_S256x19_1_1_0_0_n_n]
  rfl

/-- The left operand's column is the contracted coordinate. -/
theorem lhs_axis1 (j : S256x19.Idx) (k : dot_S256x4096_S19x4096_S256x19_1_1_0_0_n_n.contr.Idx)
    (h0 : 0 < dot_S256x4096_S19x4096_S256x19_1_1_0_0_n_n.contr.rank) :
    (dot_S256x4096_S19x4096_S256x19_1_1_0_0_n_n.lhsIdx j k 1).val = (k ⟨0, h0⟩).val :=
  DotDims.lhsIdx_val_of_single _ rfl j k

/-- The right operand's row is the result's column. -/
theorem rhs_axis0 (j : S256x19.Idx) (k : dot_S256x4096_S19x4096_S256x19_1_1_0_0_n_n.contr.Idx) :
    (dot_S256x4096_S19x4096_S256x19_1_1_0_0_n_n.rhsIdx j k 0).val = (j 1).val := by
  simp [DotDims.rhsIdx, dot_S256x4096_S19x4096_S256x19_1_1_0_0_n_n]
  rfl

/-- The right operand's column is the contracted coordinate. -/
theorem rhs_axis1 (j : S256x19.Idx) (k : dot_S256x4096_S19x4096_S256x19_1_1_0_0_n_n.contr.Idx)
    (h0 : 0 < dot_S256x4096_S19x4096_S256x19_1_1_0_0_n_n.contr.rank) :
    (dot_S256x4096_S19x4096_S256x19_1_1_0_0_n_n.rhsIdx j k 1).val = (k ⟨0, h0⟩).val :=
  DotDims.rhsIdx_val_of_single _ rfl j k

/-- The product into the zero block, read at `(f, c)`: the sum over the pixels `p` of `A (f, p) · B (c, p)`. -/
theorem matmul_pixels (A : FVec Ideal S256x4096 .f32) (B : FVec Ideal S19x4096 .f32) (f : Fin 256) (c : Fin 19) :
    matmul dot_S256x4096_S19x4096_S256x19_1_1_0_0_n_n (some .fp32) A B (constant (F := Ideal) S256x19 .f32 0x00000000#32)
        (ix2 f c)
      = ∑ p : Fin 4096, A (ix2 f p) * B (ix2 c p) := by
  refine (Ideal.matmul_constant_zero_apply _ _ A B (ix2 f c)).trans ?_
  rw [← Equiv.sum_comp (contrEquiv1 dot_S256x4096_S19x4096_S256x19_1_1_0_0_n_n 4096 rfl rfl).symm]
  refine Finset.sum_congr rfl fun p _ => ?_
  have hk := contrEquiv1_symm_val dot_S256x4096_S19x4096_S256x19_1_1_0_0_n_n 4096 rfl rfl p
  have hl : dot_S256x4096_S19x4096_S256x19_1_1_0_0_n_n.lhsIdx (ix2 f c)
      ((contrEquiv1 dot_S256x4096_S19x4096_S256x19_1_1_0_0_n_n 4096 rfl rfl).symm p) = ix2 f p := by
    funext a
    apply Fin.ext
    match a with
    | ⟨0, _⟩ => exact lhs_axis0 _ _
    | ⟨1, _⟩ => exact (lhs_axis1 _ _ _).trans hk
  have hr : dot_S256x4096_S19x4096_S256x19_1_1_0_0_n_n.rhsIdx (ix2 f c)
      ((contrEquiv1 dot_S256x4096_S19x4096_S256x19_1_1_0_0_n_n 4096 rfl rfl).symm p) = ix2 c p := by
    funext a
    apply Fin.ext
    match a with
    | ⟨0, _⟩ => exact rhs_axis0 _ _
    | ⟨1, _⟩ => exact (rhs_axis1 _ _ _).trans hk
  rw [hl, hr]

/-- The update's value at `(0, f, c)`: the block's old entry plus the chunk's sum. -/
theorem pay2_apply (x0 : Vec Ideal S1x256x4096 .f32) (x1 : Vec Ideal S1x1x4096 .i32) (acc : Vec Ideal S1x256x19 .f32)
    (f : Fin 256) (c : Fin 19) :
    k0_pay2 (F := Ideal) x0 x1 acc (ix3 (0 : Fin 1) f c)
      = acc (ix3 (0 : Fin 1) f c)
        + ∑ p : Fin 4096,
            (x0 (ix3 (0 : Fin 1) f p)
                * Ideal.rsqrt (max (∑ g : Fin 256, x0 (ix3 (0 : Fin 1) g p) * x0 (ix3 (0 : Fin 1) g p)) Cert.Spec.epsSq))
              * Cert.Spec.hot (x1 (ix3 (0 : Fin 1) (0 : Fin 1) p)) c := by
  unfold k0_pay2
  refine (addf_apply _ _ _).trans ?_
  refine congrArg₂ (· + ·) (congrFun (shapeCast_self acc _) _) ?_
  refine (shapeCast_ab_1ab_apply _ _ _ _ _).trans ?_
  refine (matmul_pixels _ _ f c).trans ?_
  refine Finset.sum_congr rfl fun p _ => ?_
  refine congrArg₂ (· * ·) ?_ ?_
  · refine (mulf_apply _ _ _).trans ?_
    refine congrArg₂ (· * ·) (shapeCast_1ab_ab_apply x0 _ f p) ?_
    refine (broadcastTo_1b_ab_apply _ _ f p).trans ?_
    refine congrArg Ideal.rsqrt (congrArg₂ max ?_ (IdealRules.named_const.ideal_named_scalar _ _ _ _ rfl))
    refine (shapeCast_a_1a_apply _ _ (0 : Fin 1) p).trans ?_
    refine (sum_channels _ _ _ _ p).trans ?_
    exact Finset.sum_congr rfl fun g _ =>
      congrArg₂ (· * ·) (shapeCast_1ab_ab_apply x0 _ g p) (shapeCast_1ab_ab_apply x0 _ g p)
  · have hl : broadcastTo S19x4096
          (shapeCast S1x4096 (shapeCast S4096 x1 shapeCasts_S1x1x4096_S4096) shapeCasts_S4096_S1x4096)
          broadcasts_S1x4096_S19x4096 (ix2 c p) = x1 (ix3 (0 : Fin 1) (0 : Fin 1) p) :=
      (broadcastTo_1b_ab_apply _ _ c p).trans
        ((shapeCast_a_1a_apply _ _ (0 : Fin 1) p).trans (shapeCast_11a_a_apply x1 _ p))
    have hc : iota Kind.tc S19x4096 32 [0] iota_S19x4096_d0_w32 (ix2 c p) = BitVec.ofNat 32 c.val :=
      iota_single_apply Kind.tc S19x4096 32 0 _ (ix2 c p)
    exact hot_of_eq _ _ _ c hl hc

end Cert.KernelIdeal.Payload

end
-- ==== Proof.Bridge.lean ====
/-
  The kernel's arrangement of the prototype sums is the specification's.

  Summing the per-batch partial prototypes over the 16 batch entries gives `Cert.Spec.proto`: the merged pixel axis of
  16384 is rows × columns (pixel `q` is row `q / 128`, column `q % 128`), its four chunks of 4096 are 32 rows each, the
  product with the 0/1 label factor is the selection by label (for `c < 19` the label word equals the word of `c` exactly
  when the label read as a signed number is `c`), and the reciprocal-square-root form of the unit vector is the
  quotient form (`Cert.Spec.unitK_eq`).
-/
import Mathlib.Algebra.BigOperators.Fin
import Idealize.ShloMosaic.Lib.Pipeline.Value
import proofs.«420269_j31542239822124_3_alg».proof.Proof.Spec

noncomputable section

namespace Cert.Spec

open Idealize.ShloMosaic Idealize.ShloMosaic.ValueIdx

namespace Bridge

/-! ## Re-indexing a sum over `m * n` positions -/

/-- A sum over the `m * n` positions, position `a * n + b` met at the pair `(a, b)`, is the double sum over the pairs. -/
theorem sum_fin_mul {M : Type} [AddCommMonoid M] (m n : ℕ) (T : Fin (m * n) → M)
    (hb : ∀ (a : Fin m) (b : Fin n), a.val * n + b.val < m * n) :
    ∑ a : Fin m, ∑ b : Fin n, T ⟨a.val * n + b.val, hb a b⟩ = ∑ q : Fin (m * n), T q := by
  rw [← Equiv.sum_comp finProdFinEquiv T, Fintype.sum_prod_type]
  refine Finset.sum_congr rfl fun a _ => Finset.sum_congr rfl fun b _ => congrArg T (Fin.ext ?_)
  show a.val * n + b.val = b.val + n * a.val
  rw [Nat.mul_comm, Nat.add_comm]

/-- The four chunks of 4096 exhaust the pixel axis. -/
theorem sum_chunks (T : Fin 16384 → EReal) : ∑ n : Fin 4, ∑ p : Fin 4096, T (pix n p) = ∑ q : Fin 16384, T q :=
  sum_fin_mul 4 4096 T fun n p => (pix n p).isLt

/-- So do the 128 rows of 128 columns, pixel `(h, w)` at position `h * 128 + w`. -/
def pixHW (h w : Fin 128) : Fin 16384 := ⟨h.val * 128 + w.val, by have := h.isLt; have := w.isLt; omega⟩

theorem sum_rows (T : Fin 16384 → EReal) : ∑ h : Fin 128, ∑ w : Fin 128, T (pixHW h w) = ∑ q : Fin 16384, T q :=
  sum_fin_mul 128 128 T fun h w => (pixHW h w).isLt

/-! ## The reshaped arrays read at a pixel -/

/-- The feature array with its two pixel axes merged reads, at pixel `h * 128 + w`, the entry at `(h, w)`. -/
theorem castX_apply (X : SX.Idx → EReal) (hX : SX.ShapeCasts SXR) (b : Fin 16) (g : Fin 256) (h w : Fin 128) :
    shapeCast SXR X hX (ix3 b g (pixHW h w)) = X (ix4 b g h w) :=
  shapeCast_apply X hX _ _ (by
    rw [Shape.rowMajor_val_four, Shape.rowMajor_val_three]
    show ((b.val * 256 + g.val) * 128 + h.val) * 128 + w.val = (b.val * 256 + g.val) * 16384 + (h.val * 128 + w.val)
    omega)

/-- The label array likewise, its unit axis read at `0`. -/
theorem castL_apply (L : SL.Idx → BitVec 32) (hL : SL.ShapeCasts SLR) (b : Fin 16) (u : Fin 1) (h w : Fin 128) :
    shapeCast SLR L hL (ix3 b u (pixHW h w)) = L (ix3 b h w) :=
  shapeCast_apply L hL _ _ (by
    have hu : u.val = 0 := by omega
    rw [Shape.rowMajor_val_three, Shape.rowMajor_val_three]
    show (b.val * 128 + h.val) * 128 + w.val = (b.val * 1 + u.val) * 16384 + (h.val * 128 + w.val)
    omega)

/-! ## The label factor -/

/-- For `c < 19` the word of `c` reads, as a signed number, `c`. -/
theorem toInt_word (c : Fin 19) : (BitVec.ofNat 32 c.val).toInt = (c.val : Int) := by
  have hc := c.isLt
  have hn : (BitVec.ofNat 32 c.val).toNat = c.val := by
    rw [BitVec.toNat_ofNat]; omega
  rw [BitVec.toInt_eq_toNat_of_lt (by rw [hn]; omega), hn]

/-- The 0/1 factor selects the labels whose signed reading is `c`. -/
theorem hot_eq (l : BitVec 32) (c : Fin 19) : hot l c = if l.toInt = (c.val : Int) then 1 else 0 := by
  unfold hot
  have e : (l = BitVec.ofNat 32 c.val) ↔ l.toInt = (c.val : Int) := by
    rw [← toInt_word c]; exact BitVec.toInt_inj.symm
  simp only [e]

/-! ## One pixel's term -/

/-- What pixel `q` of batch entry `b` adds to entry `(f, c)` in the kernel's arrangement, over the merged arrays. -/
def pixTerm (XR : SXR.Idx → EReal) (LR : SLR.Idx → BitVec 32) (b : Fin 16) (f : Fin 256) (c : Fin 19)
    (q : Fin 16384) : EReal :=
  (XR (ix3 b f q) * Ideal.rsqrt (max (∑ g : Fin 256, XR (ix3 b g q) * XR (ix3 b g q)) epsSq)) * hot (LR (ix3 b 0 q)) c

/-- A batch entry's four chunks together are the sum of the pixel terms over the whole pixel axis. -/
theorem sum_chunk (XR : SXR.Idx → EReal) (LR : SLR.Idx → BitVec 32) (b : Fin 16) (f : Fin 256) (c : Fin 19) :
    ∑ n : Fin 4, chunk XR LR b n f c = ∑ q : Fin 16384, pixTerm XR LR b f c q :=
  sum_chunks (pixTerm XR LR b f c)

/-- Over the reshaped argument arrays, pixel `(h, w)`'s term is its contribution: the merged axis read back at
    `(h, w)`, the inner sum the squared norm, the reciprocal-square-root form the quotient form, and the product with
    the 0/1 factor the selection. -/
theorem pixTerm_eq (X : SX.Idx → EReal) (L : SL.Idx → BitVec 32) (hX : SX.ShapeCasts SXR) (hL : SL.ShapeCasts SLR)
    (b : Fin 16) (f : Fin 256) (c : Fin 19) (h w : Fin 128) :
    pixTerm (shapeCast SXR X hX) (shapeCast SLR L hL) b f c (pixHW h w) = contrib X L f c b h w := by
  unfold pixTerm
  simp only [castX_apply, castL_apply]
  show unitK X b f h w * hot (L (ix3 b h w)) c = _
  rw [hot_eq, unitK_eq]
  unfold contrib
  rw [mul_ite, mul_one, mul_zero]

end Bridge

open Bridge

/-- Over the argument arrays with their pixel axes merged by a reshape, the sum over the batch of the kernel's partial
    prototypes is the prototype array. -/
theorem sum_partialK (X : SX.Idx → EReal) (L : SL.Idx → BitVec 32) (hX : SX.ShapeCasts SXR) (hL : SL.ShapeCasts SLR)
    (f : Fin 256) (c : Fin 19) :
    ∑ b : Fin 16, partialK (shapeCast SXR X hX) (shapeCast SLR L hL) (ix3 b f c) = proto X L (ix2 f c) := by
  unfold proto
  refine Finset.sum_congr rfl fun b _ => ?_
  show ∑ n : Fin 4, chunk (shapeCast SXR X hX) (shapeCast SLR L hL) b n f c
      = ∑ h : Fin 128, ∑ w : Fin 128, contrib X L f c b h w
  rw [sum_chunk, ← sum_rows]
  exact Finset.sum_congr rfl fun h _ => Finset.sum_congr rfl fun w _ => pixTerm_eq X L hX hL b f c h w

end Cert.Spec

end
-- ==== Proof.KernelValue.lean ====
/-
  The kernel's run, read as values.

  The region walks a 16 × 4 grid: point `t` is batch entry `t / 4`, chunk `t % 4`, and its feature and label blocks are
  the chunk's 4096 pixels of that entry. The [1, 256, 19] output block of a batch entry is revisited by its four points:
  the first stores zeros and then the update of them, the next three the update of what the block held, so after point
  `t` the block holds, at `(0, f, c)`, the chunks `0 … t % 4` of the entry summed (induction on the point); it is
  written back after the fourth, and the sixteen written-back blocks tile the [16, 256, 19] result array, which
  therefore ends at the per-batch partial prototypes `Cert.Spec.partialK` of the arrays the region finds. Those arrays
  are the arguments with their two pixel axes merged by a reshape; after the region the host sums the partial
  prototypes over the batch (`Cert.Spec.sum_partialK`: that sum is `Cert.Spec.proto` of the arguments) and
  renormalizes the columns (`Cert.Spec.renorm`).
-/
import proofs.«420269_j31542239822124_3_alg».proof.Proof.Gen.KernelIdeal.Frame
import proofs.«420269_j31542239822124_3_alg».proof.Proof.Payload
import proofs.«420269_j31542239822124_3_alg».proof.Proof.Bridge
import proofs.«420269_j31542239822124_3_alg».proof.Proof.Spec
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

/-! ## What each case of the body leaves in the output block -/

section Pieces

variable {F : FTy → Type} [FloatOps F] [Named F]

theorem hz : (![0, 0, 0] : Fin 3 → Nat) = fun _ => 0 := funext fun a => by fin_cases a <;> rfl

/-- At a point that is not the first of its batch entry the body stores the update of what the block held. -/
theorem out_B (c : Dev nD) (i : grid0.Coords) (a2 : Memref sig .tc .vmem S1x256x4096 .f32) (h2 : a2.IsWhole)
    (a3 : Memref sig .tc .vmem S1x1x4096 .i32) (h3 : a3.IsWhole) (a4 : Memref sig .tc .vmem S1x256x19 .f32) (h4 : a4.IsWhole)
    (hc : ¬cond0_0 i) (x0 : Vec F S1x256x4096 .f32) (x1 : Vec F S1x1x4096 .i32) (xo : Vec F S1x256x19 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1x256x4096) hz,
    View.ld_unit_zero (S := S1x1x4096) hz, View.ld_unit_zero (S := S1x256x19) hz]

/-- At the first point of a batch entry the body stores zeros and then the update of those zeros. -/
theorem out_A (c : Dev nD) (i : grid0.Coords) (a2 : Memref sig .tc .vmem S1x256x4096 .f32) (h2 : a2.IsWhole)
    (a3 : Memref sig .tc .vmem S1x1x4096 .i32) (h3 : a3.IsWhole) (a4 : Memref sig .tc .vmem S1x256x19 .f32) (h4 : a4.IsWhole)
    (hc : cond0_0 i) (x0 : Vec F S1x256x4096 .f32) (x1 : Vec F S1x1x4096 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x256x19) hz, View.readCov_unit_zero (S := S1x256x19) _ hz]
  simp only [View.readAt_eq_ld, h2.read_unread, h3.read_unread, View.ld_unit_zero (S := S1x256x4096) hz,
    View.ld_unit_zero (S := S1x1x4096) hz, View.ld_unit_zero (S := S1x256x19) hz]

end Pieces

/-! ## The windows' blocks, read off the arrays the region finds -/

variable (m : (ℓ : Loc nD τ sig) → Buf (Elt Ideal) ℓ) (ρ : Dev nD → PrngReg)

/-- The feature array with its pixel axes merged, as the region finds it. -/
abbrev xarr (c : Dev nD) : Vec Ideal S16x256x16384 .f32 := V m c main_v0
/-- The label array with its pixel axes merged, as the region finds it. -/
abbrev larr (c : Dev nD) : Vec Ideal S16x1x16384 .i32 := V m c main_v1
/-- The feature block of point `t`. -/
abbrev xblk (c : Dev nD) (t : Fin cfg0.N) : Vec Ideal S1x256x4096 .f32 := iblk m c 0 t
/-- The label block of point `t`. -/
abbrev lblk (c : Dev nD) (t : Fin cfg0.N) : Vec Ideal S1x1x4096 .i32 := iblk m c 1 t

/-- Point `t` of the 16 × 4 grid is batch entry `t / 4`, chunk `t % 4`. -/
def bOf (t : Fin cfg0.N) : Fin 16 := ⟨t.val / 4, by have := lt_of_lt_of_eq t.isLt (show cfg0.N = 64 from N_0); omega⟩
def nOf (t : Fin cfg0.N) : Fin 4 := ⟨t.val % 4, by omega⟩

/-- The feature and label windows' block indices at point `t`: (batch entry, 0, chunk). -/
theorem index0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)
theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

/-- The feature block of point `t` at `(0, g, p)` is the array at (batch entry, `g`, position `p` of the chunk). -/
theorem xblk_apply (c : Dev nD) (t : Fin cfg0.N) (g : Fin 256) (p : Fin 4096) :
    xblk m c t (ix3 (0 : Fin 1) g p) = xarr m c (ix3 (bOf t) g (Cert.Spec.pix (nOf t) p)) := by
  unfold xblk iblk
  rw [View.read_apply]
  show V m c main_v0 _ = V m c main_v0 _
  congr 1
  funext a
  apply Fin.ext
  obtain ⟨i0, i1, i2⟩ := index0 t
  match a with
  | ⟨0, _⟩ => show win0_0.index t 0 * 1 + 1 * 0 = t.val / 4; omega
  | ⟨1, _⟩ => show win0_0.index t 1 * 256 + 1 * g.val = g.val; omega
  | ⟨2, _⟩ => show win0_0.index t 2 * 4096 + 1 * p.val = t.val % 4 * 4096 + p.val; omega

/-- The label block of point `t` at `(0, 0, p)` is the array at (batch entry, 0, position `p` of the chunk). -/
theorem lblk_apply (c : Dev nD) (t : Fin cfg0.N) (p : Fin 4096) :
    lblk m c t (ix3 (0 : Fin 1) (0 : Fin 1) p) = larr m c (ix3 (bOf t) (0 : Fin 1) (Cert.Spec.pix (nOf t) p)) := by
  unfold lblk iblk
  rw [View.read_apply]
  show V m c main_v1 _ = V m c main_v1 _
  congr 1
  funext a
  apply Fin.ext
  obtain ⟨i0, i1, i2⟩ := index1 t
  match a with
  | ⟨0, _⟩ => show win0_1.index t 0 * 1 + 1 * 0 = t.val / 4; omega
  | ⟨1, _⟩ => show win0_1.index t 1 * 1 + 1 * 0 = 0; omega
  | ⟨2, _⟩ => show win0_1.index t 2 * 4096 + 1 * p.val = t.val % 4 * 4096 + p.val; omega

/-! ## The accumulation over the four chunks of a batch entry -/

/-- The chunks `0 … r` of batch entry `b`, summed. -/
def accK (XR : Cert.Spec.SXR.Idx → EReal) (LR : Cert.Spec.SLR.Idx → BitVec 32) (b : Fin 16) (r : ℕ) (f : Fin 256) (cc : Fin 19) : EReal :=
  ∑ n : Fin 4, if n.val ≤ r then Cert.Spec.chunk XR LR b n f cc else 0

theorem accK_zero (XR : Cert.Spec.SXR.Idx → EReal) (LR : Cert.Spec.SLR.Idx → BitVec 32) (b : Fin 16) (f : Fin 256) (cc : Fin 19) :
    accK XR LR b 0 f cc = Cert.Spec.chunk XR LR b 0 f cc := by
  unfold accK
  rw [Fin.sum_univ_four]
  simp

theorem accK_succ (XR : Cert.Spec.SXR.Idx → EReal) (LR : Cert.Spec.SLR.Idx → BitVec 32) (b : Fin 16) (r : ℕ) (hr : r + 1 < 4)
    (f : Fin 256) (cc : Fin 19) :
    accK XR LR b (r + 1) f cc = accK XR LR b r f cc + Cert.Spec.chunk XR LR b ⟨r + 1, hr⟩ f cc := by
  unfold accK
  rw [Fin.sum_univ_four, Fin.sum_univ_four]
  have : r = 0 ∨ r = 1 ∨ r = 2 := by omega
  rcases this with rfl | rfl | rfl <;> simp [add_assoc]

theorem accK_three (XR : Cert.Spec.SXR.Idx → EReal) (LR : Cert.Spec.SLR.Idx → BitVec 32) (b : Fin 16) (f : Fin 256) (cc : Fin 19) :
    accK XR LR b 3 f cc = Cert.Spec.partialK XR LR (ix3 b f cc) := by
  unfold accK Cert.Spec.partialK
  refine Finset.sum_congr rfl fun n _ => ?_
  rw [if_pos (by have := n.isLt; omega)]

/-- One point's chunk sum over its blocks is the chunk of the arrays. -/
theorem chunk_blocks (c : Dev nD) (t : Fin cfg0.N) (f : Fin 256) (cc : Fin 19) :
    (∑ p : Fin 4096,
        (xblk m c t (ix3 (0 : Fin 1) f p)
            * Ideal.rsqrt (max (∑ g : Fin 256, xblk m c t (ix3 (0 : Fin 1) g p) * xblk m c t (ix3 (0 : Fin 1) g p)) Cert.Spec.epsSq))
          * Cert.Spec.hot (lblk m c t (ix3 (0 : Fin 1) (0 : Fin 1) p)) cc)
      = Cert.Spec.chunk (xarr m c) (larr m c) (bOf t) (nOf t) f cc := by
  unfold Cert.Spec.chunk
  refine Finset.sum_congr rfl fun p _ => ?_
  have hs : (∑ g : Fin 256, xblk m c t (ix3 (0 : Fin 1) g p) * xblk m c t (ix3 (0 : Fin 1) g p))
      = ∑ g : Fin 256, xarr m c (ix3 (bOf t) g (Cert.Spec.pix (nOf t) p)) * xarr m c (ix3 (bOf t) g (Cert.Spec.pix (nOf t) p)) :=
    Finset.sum_congr rfl fun g _ => by rw [xblk_apply]
  rw [hs, xblk_apply, lblk_apply]

/-- What the output block holds after point `k`: at `(0, f, c)`, the chunks `0 … k % 4` of batch entry `k / 4`, summed. -/
theorem outsAt_apply (c : Dev nD) : ∀ (k : ℕ) (h : k < cfg0.N) (f : Fin 256) (cc : Fin 19),
    outsAt0 m c k h (ix3 (0 : Fin 1) f cc) = accK (xarr m c) (larr m c) (bOf ⟨k, h⟩) (k % 4) f cc
  | 0, h, f, cc => by
    rw [outsAt0_A m c ⟨0, h⟩ rfl, out_A, Cert.KernelIdeal.Payload.pay2_apply, Cert.KernelIdeal.Payload.pay1_apply, zero_add]
    rw [show (0 % 4) = 0 from rfl, accK_zero]
    exact chunk_blocks m c ⟨0, h⟩ f cc
  | k + 1, h, f, cc => by
    have hN : cfg0.N = 64 := N_0
    by_cases h0 : (k + 1) % 4 = 0
    · rw [outsAt0_A m c ⟨k + 1, h⟩ h0, out_A, Cert.KernelIdeal.Payload.pay2_apply, Cert.KernelIdeal.Payload.pay1_apply, zero_add]
      rw [h0, accK_zero]
      have := chunk_blocks m c ⟨k + 1, h⟩ f cc
      rw [this]
      congr 1
      exact Fin.ext h0
    · rw [outsAt0_B m c ⟨k + 1, h⟩ h0, out_B, Cert.KernelIdeal.Payload.pay2_apply]
      show outsAt0 m c k _ (ix3 (0 : Fin 1) f cc) + _ = _
      rw [outsAt_apply c k (Nat.lt_of_succ_lt h) f cc, chunk_blocks m c ⟨k + 1, h⟩ f cc]
      have hk : (k + 1) % 4 = k % 4 + 1 := by omega
      have hb : bOf ⟨k, Nat.lt_of_succ_lt h⟩ = bOf ⟨k + 1, h⟩ := Fin.ext (by show k / 4 = (k + 1) / 4; omega)
      rw [hk, accK_succ _ _ _ _ (by omega), hb]
      congr 2
      exact Fin.ext hk

/-! ## The array the region leaves -/

/-- The per-batch partial prototypes, as contents of the region's result array. -/
abbrev partials (c : Dev nD) : Buf (Elt Ideal) ((c : Thread nD τ).loc main_v2) := Cert.Spec.partialK (xarr m c) (larr m c)

/-- The output window's block index at point `t`: (batch entry, 0, 0). -/
theorem index2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- After the last chunk of a batch entry the output block holds, at `(0, f, c)`, the entry's partial prototype `(f, c)`. -/
theorem flushed_apply (c : Dev nD) (t : Fin cfg0.N) (h3 : t.val % 4 = 3) (f : Fin 256) (cc : Fin 19) :
    outsAt0 m c t.val t.isLt (ix3 (0 : Fin 1) f cc) = Cert.Spec.partialK (xarr m c) (larr m c) (ix3 (bOf t) f cc) := by
  rw [outsAt_apply m c t.val t.isLt f cc, h3, accK_three]

/-- The block written back after the last chunk of a batch entry is that entry's block of the partial prototypes. -/
theorem flushed_eq (c : Dev nD) (t : Fin cfg0.N) (hf : (cfg0.win 2).flush t = true) :
    (dats m 0 c).flushed 2 t = ((cfg0.win 2).blk t).view.read (Elt Ideal) (partials m c) := by
  have h3 : t.val % 4 = 3 := (flush0_2 t).mp hf
  show (cfg0.win 2).cut (grid0.coords t) ((dats m 0 c).after 2 t) = _
  rw [after0_2]
  funext y
  show outsAt0 m c t.val t.isLt y = Cert.Spec.partialK (xarr m c) (larr m c) (((cfg0.win 2).blk t).view.emb y)
  have hy : (y : S1x256x19.Idx) = ix3 (0 : Fin 1) (y 1 : Fin 256) (y 2 : Fin 19) := by
    funext a
    match a with
    | ⟨0, _⟩ => exact Subsingleton.elim (α := Fin 1) _ _
    | ⟨1, _⟩ => rfl
    | ⟨2, _⟩ => rfl
  have he : (((cfg0.win 2).blk t).view.emb y : S16x256x19.Idx) = ix3 (bOf t) (y 1 : Fin 256) (y 2 : Fin 19) := by
    funext a
    apply Fin.ext
    obtain ⟨i0, i1, i2⟩ := index2 t
    match a with
    | ⟨0, _⟩ => show win0_2.index t 0 * 1 + 1 * (y 0).val = t.val / 4; have : (y 0).val < 1 := (y 0).isLt; omega
    | ⟨1, _⟩ => show win0_2.index t 1 * 256 + 1 * (y 1).val = (y 1).val; omega
    | ⟨2, _⟩ => show win0_2.index t 2 * 19 + 1 * (y 2).val = (y 2).val; omega
  exact (congrArg (outsAt0 m c t.val t.isLt) hy).trans
    ((flushed_apply m c t h3 (y 1) (y 2)).trans (congrArg (Cert.Spec.partialK (xarr m c) (larr m c)) he.symm))

/-- An index of the result array is in point `t`'s block exactly when each coordinate is in the block's range. -/
theorem mem_blk (t : Fin cfg0.N) (i : S16x256x19.Idx) :
    i ∈ ((cfg0.win 2).blk t).view.set ↔ ∀ a : Fin 3, win0_2.index t a * S1x256x19.size a ≤ (i a).val ∧ (i a).val < win0_2.index t a * S1x256x19.size a + S1x256x19.size a := by
  show i ∈ ((View.whole main_v2).slice (win0_2.rect t)).set ↔ _
  rw [View.set_slice_whole, Rect.mem_set_unit]
  exact Iff.rfl

/-- Every entry of the result array is written back after the last chunk of its batch entry, so the region leaves the
    partial prototypes in it. -/
theorem final (c : Dev nD) : (dats m 0 c).arrAt 2 cfg0.N = partials m c :=
  (dats m 0 c).arrAt_eq_of_cover 2 (partials m c) (flushed_eq m c) fun i => by
    have hb : (i 0).val < 16 := (i 0).isLt
    have hf : (i 1).val < 256 := (i 1).isLt
    have hc : (i 2).val < 19 := (i 2).isLt
    have hN : cfg0.N = 64 := N_0
    let t : Fin cfg0.N := ⟨4 * (i 0).val + 3, by omega⟩
    have ht : t.val = 4 * (i 0).val + 3 := rfl
    refine ⟨t, (flush0_2 t).mpr (by omega), ?_⟩
    rw [mem_blk]
    obtain ⟨i0, i1, i2⟩ := index2 t
    intro a
    match a with
    | ⟨0, _⟩ => show win0_2.index t 0 * 1 ≤ (i 0).val ∧ (i 0).val < win0_2.index t 0 * 1 + 1; omega
    | ⟨1, _⟩ => show win0_2.index t 1 * 256 ≤ (i 1).val ∧ (i 1).val < win0_2.index t 1 * 256 + 256; omega
    | ⟨2, _⟩ => show win0_2.index t 2 * 19 ≤ (i 2).val ∧ (i 2).val < win0_2.index t 2 * 19 + 19; omega

/-! ## The host operations around the region -/

/-- Before the region the features' two pixel axes are merged by a reshape. -/
theorem xarr_eq (c : Dev nD) :
    xarr m c = shapeCast S16x256x16384 (m ((c : Thread nD τ).loc main_arg0)) shapeCasts_S16x256x128x128_S16x256x16384 := by
  show StableHlo.after hostOps0 (fun b => m (c, b)) (Proc.devRef .tc main_v0) = _
  after_results
  rfl

/-- Before the region the labels' two pixel axes are merged by a reshape (with a unit axis added). -/
theorem larr_eq (c : Dev nD) :
    larr m c = shapeCast S16x1x16384 (m ((c : Thread nD τ).loc main_arg1)) shapeCasts_S16x128x128_S16x1x16384 := by
  show StableHlo.after hostOps0 (fun b => m (c, b)) (Proc.devRef .tc main_v1) = _
  after_results
  rfl

/-- The prototypes as the kernel's program holds them before the closing renormalization: the partial prototypes summed
    over the batch by the host. -/
abbrev protoK (c : Dev nD) : FVec Ideal S256x19 .f32 :=
  Host.reduceAdd (partials m c) (constant (F := Ideal) S_ .f32 0x00000000#32) reducesTo_S16x256x19_S256x19_d0 h_S_

/-- After the region the host sums the partial prototypes over the batch and renormalizes the columns. -/
theorem tail_eq (c : Dev nD) :
    Pipeline.afterTail₀ cfgs (dats m) 0 (V0 m) [hostOps1, hostOps1_1, hostOps1_2] c main_v8 = Cert.Spec.renorm (protoK m c) := by
  unfold Pipeline.afterTail₀
  simp only [hostOps1, hostOps1_1, hostOps1_2, List.flatten_cons, List.flatten_nil, List.append_nil, List.cons_append, List.nil_append]
  after_results
  have hw : Pipeline.withArrays (cfgs 0).spec c (V0 m c) (fun w => (dats m 0 c).arrAt w (cfgs 0).N) (Proc.devRef .tc main_v2)
      = partials m c :=
    (Pipeline.withArrays_arr spec0 launch0.win.arr_inj c _ _ 2).trans (final m c)
  rw [hw]
  rfl

/-- The prototypes the kernel's program holds are the specification's, of the argument arrays. -/
theorem protoK_eq (c : Dev nD) :
    protoK m c = Cert.Spec.proto (m ((c : Thread nD τ).loc main_arg0)) (m ((c : Thread nD τ).loc main_arg1)) := by
  funext i
  obtain ⟨f, cc, rfl⟩ : ∃ (f : Fin 256) (cc : Fin 19), i = ix2 f cc := ⟨i 0, i 1, eq_ix2 i⟩
  rw [← Cert.Spec.sum_partialK (m ((c : Thread nD τ).loc main_arg0)) (m ((c : Thread nD τ).loc main_arg1))
    shapeCasts_S16x256x128x128_S16x256x16384 shapeCasts_S16x128x128_S16x1x16384 f cc]
  show Host.reduceAdd (partials m c) (constant (F := Ideal) S_ .f32 0x00000000#32) reducesTo_S16x256x19_S256x19_d0 h_S_ (ix2 f cc) = _
  simp only [Host.reduceAdd, Ideal.hostReduceAdd_def]
  rw [Ideal.hostReduceAdd_single reducesTo_S16x256x19_S256x19_d0 (by decide)]
  show Ideal.ofBits .f32 0x00000000#32 + _ = _
  rw [Ideal.ofBits_zero_f32, zero_add]
  refine Finset.sum_congr rfl fun b _ => ?_
  show Cert.Spec.partialK (xarr m c) (larr m c) _ = Cert.Spec.partialK _ _ _
  rw [xarr_eq, larr_eq]
  exact congrArg _ (funext fun a => Fin.ext (by match a with | ⟨0, _⟩ => rfl | ⟨1, _⟩ => rfl | ⟨2, _⟩ => rfl))

/-! ## The run, read -/

/-- Every weakly fair execution of the kernel's program ends with its result at the renormalized prototypes of the
    argument arrays, the arguments unchanged. -/
theorem run : θ_run defs (onTc (τ := τ) (main (F := Ideal))) ⟨m, fun _ => 0, ρ⟩ fun r => ∀ c : Dev nD,
      r.2.mem ((c : Thread nD τ).loc main_v8)
        = Cert.Spec.renorm (Cert.Spec.proto (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v8 (Pipeline.mem_restRefs_of main_v8 (by decide) (by decide))).trans
          ((tail_eq m c).trans (congrArg Cert.Spec.renorm (protoK_eq m c))),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.lean ====
/-
  Per-class prototypes of L2-normalized pixel features: the kernel against its reference, over the extended reals.

  Both programs take features `X` f32[16, 256, 128, 128] and labels `L` i32[16, 128, 128]. Every pixel's 256-vector of
  channels is divided by its Euclidean norm clamped below at `ε`; entry `(f, c)` of the [256, 19] prototype array sums
  channel `f` of those unit vectors over the pixels labelled `c`; each of the 19 columns is then divided by its own
  norm clamped at `ε` (`Cert.Spec.proto`, `Cert.Spec.renorm`).

  The reference scatter-adds the pixels' unit vectors into a [20, 256] table by label (an update whose row falls outside
  the table is dropped; row 19 is cut off) and transposes. The kernel walks a 16 × 4 grid — batch entry × chunk of 4096
  pixels — and accumulates into one [256, 19] block per batch entry the matrix product of the scaled chunk with the
  chunk's 19 one-hot label rows; the host sums the 16 blocks. The two agree on every label word: a label outside
  `0 … 18` matches no one-hot row and lands on no kept table row.

  The kernel clamps the SQUARED norm at the constant the certificate's table names `eps_sq` and takes a reciprocal square
  root; the table gives that name the exact square of the reference's `ε`, and `x · rsqrt (max s ε²) = x / max (√s) ε` on
  all extended reals, so no finiteness of the inputs is used. All sums are finite sums in a commutative monoid; their
  rearrangement (pixels by row and column against pixels by chunk and position, the running sum over the four chunks)
  needs nothing else.
-/
import proofs.«420269_j31542239822124_3_alg».proof.Defs
import proofs.«420269_j31542239822124_3_alg».proof.Proof.Gen.Kernel
import proofs.«420269_j31542239822124_3_alg».proof.Proof.Gen.Kernel.Skeleton
import proofs.«420269_j31542239822124_3_alg».proof.Proof.Gen.Kernel.Launch
import proofs.«420269_j31542239822124_3_alg».proof.Proof.Gen.Kernel.Points
import proofs.«420269_j31542239822124_3_alg».proof.Proof.Gen.Kernel.Frame
import proofs.«420269_j31542239822124_3_alg».proof.Proof.Gen.KernelIdeal
import proofs.«420269_j31542239822124_3_alg».proof.Proof.Gen.KernelIdeal.Skeleton
import proofs.«420269_j31542239822124_3_alg».proof.Proof.Gen.KernelIdeal.Launch
import proofs.«420269_j31542239822124_3_alg».proof.Proof.Gen.KernelIdeal.Points
import proofs.«420269_j31542239822124_3_alg».proof.Proof.Gen.KernelIdeal.Frame
import proofs.«420269_j31542239822124_3_alg».proof.Proof.Gen.ReferenceIdeal
import proofs.«420269_j31542239822124_3_alg».proof.Proof.Gen.ReferenceIdeal.Run
import proofs.«420269_j31542239822124_3_alg».proof.Proof.Gen.ReferenceIdeal.Read
import proofs.«420269_j31542239822124_3_alg».proof.Proof.Gen.Pre_finite_inputs
import proofs.«420269_j31542239822124_3_alg».proof.Proof.Spec
import proofs.«420269_j31542239822124_3_alg».proof.Proof.RefProto
import proofs.«420269_j31542239822124_3_alg».proof.Proof.KernelValue
import Idealize.ShloMosaic.Adequacy
import Idealize.ShloMosaic.Init

noncomputable section

namespace Cert.Proof

open Idealize.ShloMosaic Idealize.ShloMosaic.TcCoe Idealize.SL.Sem

/-- The reference's result is the renormalized prototypes: its closing operations are `Cert.Spec.renorm`'s, applied to
    its prototype array. -/
theorem reference_result (X : (⟨Cert.ReferenceIdeal.S16x256x128x128, .f32⟩ : BufTy).Contents (Elt Ideal))
    (L : (⟨Cert.ReferenceIdeal.S16x128x128, .i32⟩ : BufTy).Contents (Elt Ideal)) :
    Cert.ReferenceIdeal.Read.val_main_v17 (F := Ideal) X L = Cert.Spec.renorm (Cert.Spec.proto X L) := by
  rw [← Cert.ReferenceIdeal.RefValue.protos_eq]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one named constant: the table gives `eps_sq` the square of the reference's clamp, and the printed constant is
    that value over the extended reals. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- Both programs end at the renormalized prototypes of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, reference_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
